-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096 : Shape := ⟨1, ![4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x4096x4096 .f32) (main_arg1 : FVec F S4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8x4096x4096 : Shape := ⟨3, ![8, 4096, 4096]⟩
abbrev S4096 : Shape := ⟨1, ![4096]⟩
abbrev S1x512x4096 : Shape := ⟨3, ![1, 512, 4096]⟩
abbrev S1x1x4096 : Shape := ⟨3, ![1, 1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S8x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S4096, .f32⟩
  | .local _ .vmem, ⟨3, _⟩ => ⟨S1x512x4096, .f32⟩
  | .local _ .vmem, ⟨4, _⟩ => ⟨S1x512x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4096_S4096_0 : ∀ a, (![0] : Fin 1 → Nat) a + S4096.size a ≤ S4096.size a
  h_S4096 : 0 < S4096.numel
  shapeCasts_S4096_S1x1x4096 : S4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  broadcasts_S1x1x4096_S1x512x4096 : S1x1x4096.Broadcasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x4096x4096.size a
  hwx0_0 : ∀ i : grid0.Coords, EltTy.bits .f32 = 32 ∨ (Rect.block (s := S8x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S8x4096x4096.size a
  hwx0_2 : ∀ i : grid0.Coords, EltTy.bits .f32 = 32 ∨ (Rect.block (s := S8x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S1x1x4096, .f32⟩
  | .hbm, ⟨3, _⟩ => ⟨S8x4096x4096, .f32⟩
  | .hbm, ⟨4, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)

variable [Facts₀]

class Facts : Prop extends Facts₀ where

variable [Facts]
-- ==== Proof.ChannelScale.lean ====
/-
  The mathematics both programs compute: an array `x` of shape [8, 4096, 4096] scaled along its last axis by a
  vector `d` of length 4096 — entry `(b, r, k)` of the result is `x (b, r, k) · d k`. (This is the product of `x`
  with the diagonal matrix whose diagonal is `d`.) Stated once, over literal shapes and for any float instance, so
  that the kernel's array after its run and the reference's result are both shown equal to this ONE function.
-/
import Idealize.ShloMosaic.PureOps
import Idealize.ShloMosaic.Lib.ValueIdx

noncomputable section

namespace Cert.ChannelScale

open Idealize.ShloMosaic

/-- The shape of `x` and of the result. -/
abbrev SX : Shape := ⟨3, ![8, 4096, 4096]⟩
/-- The shape of the scale vector. -/
abbrev SD : Shape := ⟨1, ![4096]⟩

variable {F : FTy → Type} [FloatOps F]

/-- The position along the last axis of an index of `x`, as an index of the scale vector. -/
abbrev chan (i : SX.Idx) : SD.Idx := ValueIdx.ix1 (n := 4096) ⟨(i 2).val, (i 2).isLt⟩

/-- `x` scaled along its last axis by `d`: entry `i = (b, r, k)` is `x i · d k`. -/
def scaled (x : SX.Idx → Elt F .f32) (d : SD.Idx → Elt F .f32) : SX.Idx → Elt F .f32 :=
  fun i => FloatOps.mulf (x i) (d (chan i))

theorem scaled_apply (x : SX.Idx → Elt F .f32) (d : SD.Idx → Elt F .f32) (i : SX.Idx) :
    scaled x d i = FloatOps.mulf (x i) (d (chan i)) := rfl

end Cert.ChannelScale

end
-- ==== Proof.KernelScale.lean ====
/-
  The kernel's result array, as one function of its two argument arrays.

  The kernel walks a grid of 8 × 8 points. At point `(b, s)` it is handed rows `512·s … 512·s + 511` of slab `b` of
  `x` (a block of shape [1, 512, 4096], all 4096 positions of the last axis), and the whole scale vector `d`; it
  multiplies the block, entry by entry, with `d` laid along the last axis, and writes the product back to the same
  rows of the same slab of the result. So
    * what one point leaves in its block at `(0, r, k)` is `xblock (0, r, k) · d k`            (`step_block`),
    * which is exactly that block of the whole-array function `scaled x d`                        (`block_is_scaled`),
    * the 64 blocks tile the result: index `(b, r, k)` lies in the block of point `(b, r / 512)`  (`covered`),
  and therefore the result array after the run IS `scaled x d` (`final`, `run`).
-/
import proofs.«167543_j16544214024205_1_alg».proof.Proof.Gen.KernelIdeal.Value
import proofs.«167543_j16544214024205_1_alg».proof.Proof.ChannelScale

noncomputable section

namespace Cert.KernelIdeal.Scale

open Cert.KernelIdeal Cert.KernelIdeal.Gen Cert.KernelIdeal.Value Idealize.ShloMosaic Idealize.ShloMosaic.TcCoe Idealize.SL.Sem
open Idealize.ShloMosaic.Pipeline (Dat)
open Cert.ChannelScale

variable {F : FTy → Type} [FloatOps F]
variable (m : (ℓ : Loc nD τ sig) → Buf (Elt F) ℓ) (ρ : Dev nD → PrngReg)

/-! ## One grid point -/

theorem zeros3 : (![0, 0, 0] : Fin 3 → Nat) = fun _ => 0 := funext fun a => by fin_cases a <;> rfl
theorem zeros1 : (![0] : Fin 1 → Nat) = fun _ => 0 := funext fun a => by fin_cases a <;> rfl

/-- What one grid point leaves in its output block, from the block `xb` of `x` and the scale vector `dv` it was
    handed: at `y = (0, r, k)` the product `xb y · dv k`. The body loads both whole, lays `dv` along the last axis
    and multiplies; the only index bookkeeping is that the leading coordinate of a [1, 512, 4096] index is 0. -/
theorem step_block (xb : Vec F S1x512x4096 .f32) (dv : Vec F S4096 .f32) (y : S1x512x4096.Idx) :
    out0_2 xb dv y = FloatOps.mulf (xb y) (dv (ValueIdx.ix1 (n := 4096) ⟨(y 2).val, (y 2).isLt⟩)) := by
  unfold out0_2
  rw [canon2_eq]
  simp only [View.ld_unit_zero (S := S1x512x4096) zeros3, View.ld_unit_zero (S := S4096) zeros1]
  show FloatOps.mulf (xb (ix2_0 y)) (dv (ix2_1 y)) = _
  have e0 : ix2_0 y = y := by
    funext a; apply Fin.ext
    match a with
    | ⟨0, _⟩ => show 0 = (y 0).val; have h : (y 0).val < 1 := (y 0).isLt; omega
    | ⟨1, _⟩ => rfl
    | ⟨2, _⟩ => rfl
  have e1 : ix2_1 y = ValueIdx.ix1 (n := 4096) ⟨(y 2).val, (y 2).isLt⟩ := by
    funext a; apply Fin.ext
    match a with
    | ⟨0, _⟩ => rfl
  rw [e0, e1]

/-! ## The block of a point is a block of the whole-array function -/

/-- The printed index maps, decided over the 64 grid points: the block of `x` moves with the output block along the
    first two axes and both sit at 0 along the last; the scale vector's one block is always block 0; the output's
    block indices along the first two axes stay below 8. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 1) = 0
    ∧ win0_2.index t (0 : Fin 3) ≤ 7
    ∧ win0_2.index t (1 : Fin 3) ≤ 7 :=
  (by decide +kernel : ∀ t : Fin grid0.N, _)

/-- WHAT POINT `t` WRITES BACK is block `t` of `scaled x d`, `x` and `d` the argument arrays as the region finds them:
    the block of `x` the point was handed sits at the same array indices as the output block, and position `k` of the
    scale vector's one block is position `k` of the vector. -/
theorem block_is_scaled (c : Dev nD) (t : Fin cfg0.N) :
    (dats m 0 c).flushed 2 t
      = ((cfg0.win 2).blk t).view.read (Elt F) (scaled (V m c main_arg0) (V m c main_arg1)) := by
  rw [flushed2]
  obtain ⟨e0, e1, e2, e3, e4, -, -⟩ := idx_facts t
  funext j
  show out0_2 (iblk m c 0 t) (iblk m c 1 t) j
    = FloatOps.mulf (V m c main_arg0 (((cfg0.win 2).blk t).view.emb j))
        (V m c main_arg1 (chan (((cfg0.win 2).blk t).view.emb j)))
  refine (step_block (iblk m c 0 t) (iblk m c 1 t) j).trans ?_
  show FloatOps.mulf (V m c main_arg0 (((cfg0.win 0).blk t).view.emb j))
        (V m c main_arg1 (((cfg0.win 1).blk t).view.emb (ValueIdx.ix1 (n := 4096) ⟨(j 2).val, (j 2).isLt⟩)))
    = _
  have h0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  have h1 : ((cfg0.win 1).blk t).view.emb (ValueIdx.ix1 (n := 4096) ⟨(j 2).val, (j 2).isLt⟩)
      = chan (((cfg0.win 2).blk t).view.emb j) := by
    funext a; apply Fin.ext
    match a with
    | ⟨0, _⟩ => show win0_1.index t (0 : Fin 1) * 4096 + 1 * (j 2).val = win0_2.index t (2 : Fin 3) * 4096 + 1 * (j 2).val; omega
  rw [h0, h1]

/-! ## The blocks tile the result -/

/-- An index of the result is in point `t`'s block iff each coordinate is in the block's range on its axis. -/
theorem mem_block (t : Fin cfg0.N) (i : S8x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v0).slice (win0_2.rect t)).set ↔ _
  rw [View.set_slice_whole, Rect.mem_set_unit]
  exact Iff.rfl

/-- Every block position `(q0, q1, 0)` with `q0, q1 < 8` is some grid point's (decided). -/
theorem idx_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- Every index `(b, r, k)` of the result lies in the block some point writes back: the point at block position
    `(b, r / 512, 0)`. -/
theorem covered (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-! ## The array after the run -/

/-- THE RESULT ARRAY after the run is `x` scaled along its last axis by `d`, `x` and `d` the arguments as launched. -/
theorem final (c : Dev nD) :
    (dats m 0 c).arrAt 2 cfg0.N
      = scaled (m ((c : Thread nD τ).loc main_arg0)) (m ((c : Thread nD τ).loc main_arg1)) :=
  (dats m 0 c).arrAt_eq_of_cover 2 (scaled (V m c main_arg0) (V m c main_arg1))
    (fun t _ => block_is_scaled m c t) covered

/-- Every weakly fair execution of the kernel program terminates with the result array at `scaled x d` and the two
    arguments unchanged. -/
theorem run : θ_run defs (onTc (τ := τ) (main (F := F))) ⟨m, fun _ => 0, ρ⟩ fun r => ∀ c : Dev nD,
      r.2.mem ((c : Thread nD τ).loc main_v0)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scale

end
-- ==== Proof.ReferenceScale.lean ====
/-
  The reference's result, as the same function of its two argument arrays.

  The reference lays the scale vector `d` out as a [1, 1, 4096] array (position `k` of `d` at `(0, 0, k)`), repeats
  that along the first two axes to the full shape [8, 4096, 4096] (so entry `(b, r, k)` holds `d k`), and multiplies
  `x` with it entry by entry: entry `(b, r, k)` of its result is `x (b, r, k) · d k`, which is `scaled x d`.
-/
import proofs.«167543_j16544214024205_1_alg».proof.Proof.Gen.ReferenceIdeal.Read
import proofs.«167543_j16544214024205_1_alg».proof.Proof.ChannelScale

noncomputable section

namespace Cert.ReferenceIdeal.Scale

open Cert.ReferenceIdeal Cert.ReferenceIdeal.Read Idealize.ShloMosaic
open Cert.ChannelScale

variable {F : FTy → Type} [FloatOps F]

/-- The reference's last stage is `scaled`: reading the product at `i = (b, r, k)`, the twice-broadcast vector is
    read at `(0, 0, k)` and then at `k`. -/
theorem result_eq (x : SX.Idx → Elt F .f32) (d : SD.Idx → Elt F .f32) :
    val_main_v2 (F := F) x d = scaled x d := by
  funext i
  rw [val_main_v2_apply, val_main_v1_apply, val_main_v0_apply]
  show FloatOps.mulf (x i) (d (idx_main_v0 (idx_main_v1 i))) = FloatOps.mulf (x i) (d (chan i))
  have e : idx_main_v0 (idx_main_v1 i) = chan i := by
    funext a; apply Fin.ext
    match a with
    | ⟨0, _⟩ => rfl
  rw [e]

end Cert.ReferenceIdeal.Scale

end
-- ==== Proof.lean ====
/-
  The certificate that the tiled kernel and the one-line reference compute the same array.

  Both take `x` of shape [8, 4096, 4096] and a vector `d` of length 4096 and return `x` scaled along its last axis
  by `d`: entry `(b, r, k)` is `x (b, r, k) · d k` (the product of `x` with the diagonal matrix of `d`). The kernel
  does it block by block — 64 blocks of 512 full rows each, tiling the array — and the reference in one multiply
  against `d` repeated along the first two axes. Both multiply the same two numbers in the same order at every
  entry, so the two results agree as extended reals with no algebraic law and no use of the inputs' finiteness.

  The three frames: the two kernel programs' are their generated frame certificates; the reference has no kernel,
  and its frame is its run with the result forgotten. The idealization rewrote nothing, so `preserves` is trivial.
  `algebraic`: the kernel's run ends with its result at `scaled x d` (Proof/KernelScale.lean), the reference's run
  with its result at a term that is `scaled x d` too (Proof/ReferenceScale.lean), from memories agreeing on `x`, `d`.
-/
import proofs.«167543_j16544214024205_1_alg».proof.Defs
import proofs.«167543_j16544214024205_1_alg».proof.Proof.Gen.Kernel
import proofs.«167543_j16544214024205_1_alg».proof.Proof.Gen.Kernel.Skeleton
import proofs.«167543_j16544214024205_1_alg».proof.Proof.Gen.Kernel.Launch
import proofs.«167543_j16544214024205_1_alg».proof.Proof.Gen.Kernel.Points
import proofs.«167543_j16544214024205_1_alg».proof.Proof.Gen.Kernel.Frame
import proofs.«167543_j16544214024205_1_alg».proof.Proof.Gen.KernelIdeal
import proofs.«167543_j16544214024205_1_alg».proof.Proof.Gen.KernelIdeal.Skeleton
import proofs.«167543_j16544214024205_1_alg».proof.Proof.Gen.KernelIdeal.Launch
import proofs.«167543_j16544214024205_1_alg».proof.Proof.Gen.KernelIdeal.Points
import proofs.«167543_j16544214024205_1_alg».proof.Proof.Gen.KernelIdeal.Frame
import proofs.«167543_j16544214024205_1_alg».proof.Proof.Gen.ReferenceIdeal
import proofs.«167543_j16544214024205_1_alg».proof.Proof.Gen.Pre_finite_inputs
import proofs.«167543_j16544214024205_1_alg».proof.Proof.Gen.KernelIdeal.Value
import proofs.«167543_j16544214024205_1_alg».proof.Proof.Gen.ReferenceIdeal.Run
import proofs.«167543_j16544214024205_1_alg».proof.Proof.Gen.ReferenceIdeal.Read
import proofs.«167543_j16544214024205_1_alg».proof.Proof.ChannelScale
import proofs.«167543_j16544214024205_1_alg».proof.Proof.KernelScale
import proofs.«167543_j16544214024205_1_alg».proof.Proof.ReferenceScale
import Idealize.ShloMosaic.Adequacy
import Idealize.ShloMosaic.Init

noncomputable section

namespace Cert.Proof

open Idealize.ShloMosaic Idealize.ShloMosaic.TcCoe Idealize.SL.Sem

/-- The word-level kernel program runs to the end and leaves `x` and `d` as they were. -/
theorem frame_kernel [Cert.Kernel.Facts] [Cert.Pre_finite_inputs.Facts] : Cert.frame_Kernel :=
  fun m ρ _ => Cert.Kernel.Gen.frame m ρ

/-- So does the kernel program read over the extended reals. -/
theorem frame_kernelIdeal [Cert.KernelIdeal.Facts] [Cert.Pre_finite_inputs.Facts] : Cert.frame_KernelIdeal :=
  fun m ρ _ => Cert.KernelIdeal.Gen.frame m ρ

/-- The reference runs to the end and leaves `x` and `d` as they were: its run, the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Over the extended reals both programs end with their result at `scaled x d`: entry `(b, r, k)` is
    `x (b, r, k) · d k` on both sides, the memories agreeing on `x` and `d`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, (hagree c).1, (hagree c).2]
  exact Cert.ReferenceIdeal.Scale.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
